-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S32x32x256 : Shape := ⟨3, ![32, 32, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S32x32x256 : S_.BroadcastsInDim S32x32x256 (![] : Fin 0 → Fin S32x32x256.rank)
  reducesTo_S32x32x256_S_d0_1_2 : S32x32x256.ReducesTo [0, 1, 2] S_

variable [Facts]

def fn {F : FTy → Type} [FloatOps F] (main_arg0 : FVec F S512x256 .f32) (main_arg1 : FVec F S32x32x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S32x32x256 .f32 := Host.absf main_arg1
  let main_cst_0 : FVec F S_ .f32 := constant S_ .f32 0x7F800000#32
  let main_v5 : FVec F S32x32x256 .f32 := broadcastInDim S32x32x256 ![] bcast_S_S32x32x256 main_cst_0
  let main_v6 : IVec S32x32x256 1 := cmpf .olt main_v4 main_v5
  let main_c_1 : IVec S_ 1 := constantI S_ 1 1#1
  let main_v7 : IVec S_ 1 := (fun x v => Host.reduce IntOp.andi x v reducesTo_S32x32x256_S_d0_1_2 h_S_) main_v6 main_c_1
  let main_v8 : IVec S_ 1 := andi main_v3 main_v7
  main_v8
-- ==== Kernel.lean ====
abbrev S512x256 : Shape := ⟨2, ![512, 256]⟩
abbrev S32x32x256 : Shape := ⟨3, ![32, 32, 256]⟩
abbrev S512x1024 : Shape := ⟨2, ![512, 1024]⟩
abbrev S1024x256 : Shape := ⟨2, ![1024, 256]⟩
abbrev S512 : Shape := ⟨1, ![512]⟩
abbrev S512x1 : Shape := ⟨2, ![512, 1]⟩
abbrev S1x256 : Shape := ⟨2, ![1, 256]⟩
abbrev S1x1024 : Shape := ⟨2, ![1, 1024]⟩
abbrev S512x32x32 : Shape := ⟨3, ![512, 32, 32]⟩

abbrev nBuf : Space → Nat
  | .hbm => 4
  | .vmem => 3
  | .smem => 0
  | _ => 0

abbrev bufTy : (tb : Table) → Fin (tcTables nBuf tb) → BufTy
  | .hbm, ⟨0, _⟩ => ⟨S512x256, .f32⟩
  | .hbm, ⟨1, _⟩ => ⟨S32x32x256, .f32⟩
  | .hbm, ⟨2, _⟩ => ⟨S512x1024, .f32⟩
  | .hbm, ⟨3, _⟩ => ⟨S512x32x32, .f32⟩
  | .local _ .vmem, ⟨0, _⟩ => ⟨S512x256, .f32⟩
  | .local _ .vmem, ⟨1, _⟩ => ⟨S32x32x256, .f32⟩
  | .local _ .vmem, ⟨2, _⟩ => ⟨S512x1024, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  reshapes_S32x32x256_S1024x256 : S1024x256.numel = S32x32x256.numel ∧ (2 ≤ S32x32x256.rank ∧ 2 ≤ S1024x256.rank)
  inb_S1024x256_S1024x256_0_0 : ∀ a, (![0, 0] : Fin 2 → Nat) a + S1024x256.size a ≤ S1024x256.size a
  h_S1024x256 : 0 < S1024x256.numel
  inb_S512x256_S512x256_0_0 : ∀ a, (![0, 0] : Fin 2 → Nat) a + S512x256.size a ≤ S512x256.size a
  h_S512x256 : 0 < S512x256.numel
  reduces_S512x256_S512 : S512x256.Reduces [1] S512
  shapeCasts_S512_S512x1 : S512.ShapeCasts S512x1
  broadcasts_S512x1_S512x1024 : S512x1.Broadcasts S512x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S512x1024_S512x32x32 : S512x1024.ShapeCasts S512x32x32
  dot_S512x256_S1024x256_S512x1024_1_1_0_0_n_n_wf : DotDims.WF S512x256 S1024x256 S512x1024 [1] [1] [0] [0] [] []
  dot_S1x256_S1024x256_S1x1024_1_1_0_0_n_n_wf : DotDims.WF S1x256 S1024x256 S1x1024 [1] [1] [0] [0] [] []
  hstage0_0 : ∀ j, (stage0_0 j).IsWhole
  hstage0_1 : ∀ j, (stage0_1 j).IsWhole
  hstage0_2 : ∀ j, (stage0_2 j).IsWhole

variable [Facts₀]

def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf
def dot_S1x256_S1024x256_S1x1024_1_1_0_0_n_n : DotDims S1x256 S1024x256 S1x1024 where
  lhsContracting := [1]
  rhsContracting := [1]
  lhsNonContracting := [0]
  rhsNonContracting := [0]
  lhsBatch := []
  rhsBatch := []
  wf := dot_S1x256_S1024x256_S1x1024_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x256 : Shape := ⟨2, ![512, 256]⟩
abbrev S32x32x256 : Shape := ⟨3, ![32, 32, 256]⟩
abbrev S512x1x1x256 : Shape := ⟨4, ![512, 1, 1, 256]⟩
abbrev S1x32x32x256 : Shape := ⟨4, ![1, 32, 32, 256]⟩
abbrev S512x32x32x256 : Shape := ⟨4, ![512, 32, 32, 256]⟩
abbrev S_ : Shape := ⟨0, ![]⟩
abbrev S512x32x32 : Shape := ⟨3, ![512, 32, 32]⟩

abbrev nBuf : Space → Nat
  | .hbm => 10
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S32x32x256, .f32⟩
  | .hbm, ⟨2, _⟩ => ⟨S512x1x1x256, .f32⟩
  | .hbm, ⟨3, _⟩ => ⟨S1x32x32x256, .f32⟩
  | .hbm, ⟨4, _⟩ => ⟨S512x32x32x256, .f32⟩
  | .hbm, ⟨5, _⟩ => ⟨S512x32x32x256, .f32⟩
  | .hbm, ⟨6, _⟩ => ⟨S512x32x32x256, .f32⟩
  | .hbm, ⟨7, _⟩ => ⟨S512x32x32x256, .f32⟩
  | .hbm, ⟨8, _⟩ => ⟨S_, .f32⟩
  | .hbm, ⟨9, _⟩ => ⟨S512x32x32, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S512x256_S512x1x1x256_0_3 : S512x256.BroadcastsInDim S512x1x1x256 (![0, 3] : Fin 2 → Fin S512x1x1x256.rank)
  bcast_S32x32x256_S1x32x32x256_1_2_3 : S32x32x256.BroadcastsInDim S1x32x32x256 (![1, 2, 3] : Fin 3 → Fin S1x32x32x256.rank)
  bcast_S1x32x32x256_S512x32x32x256_0_1_2_3 : S1x32x32x256.BroadcastsInDim S512x32x32x256 (![0, 1, 2, 3] : Fin 4 → Fin S512x32x32x256.rank)
  bcast_S512x1x1x256_S512x32x32x256_0_1_2_3 : S512x1x1x256.BroadcastsInDim S512x32x32x256 (![0, 1, 2, 3] : Fin 4 → Fin S512x32x32x256.rank)
  reducesTo_S512x32x32x256_S512x32x32_d3 : S512x32x32x256.ReducesTo [3] S512x32x32
  h_S_ : 0 < S_.numel

variable [Facts₀]

class Facts : Prop extends Facts₀ where

variable [Facts]
-- ==== Proof.KernelValue.lean ====
/-
  What the idealized kernel's result array holds after the run, as one function of the two argument arrays.

  The call has no grid: one point, each window's block the whole array. The body loads `x` [512, 256] whole and
  the weights [32, 32, 256] whole through their [1024, 256] view (the same row-major position: neuron
  `n = 32 r + c`), and stores ONE value over the whole [512, 1024] output block: the cross term
  `(-2 x) · wᵀ`, plus the row sums of `x²` spread along the rows, plus the row `1 · (w²)ᵀ` spread down the
  columns. So the output array after the run is that value of the argument arrays, and the program's result
  is its [512, 32, 32] view, the one host line after the call.
-/
import proofs.«153509_g2010044694719_bridgefix_232_17_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Val

open Cert.KernelIdeal Cert.KernelIdeal.Gen

variable {F : FTy → Type} [FloatOps F]
variable (m : (ℓ : Loc nD τ sig) → Buf (Elt F) ℓ) (ρ : Dev nD → PrngReg)

theorem zeros2 : (![0, 0] : Fin 2 → Nat) = fun _ => 0 := funext fun a => by fin_cases a <;> rfl

/-- The weights as the body reads them: [32, 32, 256] viewed as [1024, 256], entry for entry in row-major order. -/
abbrev flatW (w : Vec F S32x32x256 .f32) : Vec F S1024x256 .f32 :=
  shapeCast S1024x256 w reshapes_S32x32x256_S1024x256.1

/-- The body's one stored value, of the two input blocks. -/
abbrev dist (x : Vec F S512x256 .f32) (w : Vec F S32x32x256 .f32) : Vec F S512x1024 .f32 :=
  k0_pay1 (flatW w) x

/-- What the body leaves in the output's staging buffer: its one covering store's value, whose loads read the
    whole input buffers — the weights' through the [1024, 256] view of the buffer, which reads the contents at the
    index of the same row-major position. -/
theorem stored (c : Dev nD) (a0 : Memref sig .tc .vmem S512x256 .f32) (h0 : a0.IsWhole)
    (a1 : Memref sig .tc .vmem S32x32x256 .f32) (h1 : a1.IsWhole) (a2 : Memref sig .tc .vmem S512x1024 .f32) (h2 : a2.IsWhole)
    (x0 : Vec F S512x256 .f32) (x1 : Vec F S32x32x256 .f32) :
    out0_A_2 c a0 h0 a1 h1 a2 h2 x0 x1 = dist x0 x1 := by
  unfold out0_A_2
  rw [View.read_writes_eq_canon _ _ _ (cover0_A_2 c a0 h0 a1 h1 a2 h2 x0 x1)]
  unfold kernelRun0_A
  dsimp only
  sl_unfold_words
  rw [View.canon_unit_zero zeros2]
  congr 1
  · rw [View.readAt_eq_ld, View.ld_unit_zero (S := S1024x256) zeros2]
    funext j
    exact congrFun (h1.read_unread x1) _
  · rw [View.readAt_eq_ld, h0.read_unread, View.ld_unit_zero (S := S512x256) zeros2]

/-- Each input window's block at the one point is its whole array. -/
theorem xblock (c : Dev nD) (t : Fin cfg0.N) : iblk m c 0 t = m ((c : Thread nD τ).loc main_arg0) := by
  have hz : (fun a => win0_0.index t a * main_arg0.ty.shape.size a) = fun _ => 0 := funext fun a => Nat.zero_mul _
  exact Memref.read_access_unit_zero (Elt F) main_arg0 hz (fun a => by rw [congrFun hz a]; simp) (V m c main_arg0)
theorem wblock (c : Dev nD) (t : Fin cfg0.N) : iblk m c 1 t = m ((c : Thread nD τ).loc main_arg1) := by
  have hz : (fun a => win0_1.index t a * main_arg1.ty.shape.size a) = fun _ => 0 := funext fun a => Nat.zero_mul _
  exact Memref.read_access_unit_zero (Elt F) main_arg1 hz (fun a => by rw [congrFun hz a]; simp) (V m c main_arg1)

/-- The output array after the run: the stored value of the argument arrays. -/
abbrev flat (c : Dev nD) : Buf (Elt F) ((c : Thread nD τ).loc main_v0) :=
  dist (m ((c : Thread nD τ).loc main_arg0)) (m ((c : Thread nD τ).loc main_arg1))

/-- The staging buffer after the point holds it. -/
theorem staged (c : Dev nD) (t : Fin cfg0.N) : outsAt0 m c t = flat m c := by
  unfold outsAt0
  rw [stored, xblock, wblock]

/-- The one write-back writes it: the output's block is the whole array. -/
theorem flushed_eq (c : Dev nD) (t : Fin cfg0.N) (hf : (cfg0.win 2).flush t = true) :
    (dats m 0 c).flushed 2 t = ((cfg0.win 2).blk t).view.read (Elt F) (flat m c) := by
  show (cfg0.win 2).cut (grid0.coords t) ((dats m 0 c).after 2 t) = _
  rw [after0_2, staged]
  have hz : (fun a => win0_2.index t a * main_v0.ty.shape.size a) = fun _ => 0 := funext fun a => Nat.zero_mul _
  exact (Memref.read_access_unit_zero (Elt F) main_v0 hz (fun a => by rw [congrFun hz a]; simp) (flat m c)).symm

/-- So the output array ends holding it: the one point's block covers every index. -/
theorem final (c : Dev nD) : (dats m 0 c).arrAt 2 cfg0.N = flat m c :=
  (dats m 0 c).arrAt_eq_of_cover 2 (flat m c) (flushed_eq m c) fun i =>
    ⟨t0_0, flush0_2 t0_0, by
      show i ∈ ((View.whole main_v0).slice (win0_2.rect t0_0)).set
      rw [View.set_slice_whole, Rect.mem_set_unit]
      intro a
      refine ⟨?_, ?_⟩
      · show 0 * _ ≤ _
        rw [Nat.zero_mul]; exact Nat.zero_le _
      · show _ < 0 * _ + _
        rw [Nat.zero_mul, Nat.zero_add]; exact (i a).isLt⟩

/-- The program's result: the output array's [512, 32, 32] view. -/
abbrev result (c : Dev nD) : Buf (Elt F) ((c : Thread nD τ).loc main_v1) :=
  shapeCast S512x32x32 (flat m c) shapeCasts_S512x1024_S512x32x32

/-- The host line after the call reshapes the output array as the call left it. -/
theorem tail_eq (c : Dev nD) :
    Pipeline.afterTail₀ cfgs (dats m) 0 (V0 m) [hostOps1] c main_v1 = result m c := by
  unfold Pipeline.afterTail₀
  show StableHlo.after hostOps1 _ (Proc.devRef .tc main_v1) = _
  after_results
  have e : Pipeline.withArrays (cfgs 0).spec c (V0 m c) (fun w => (dats m 0 c).arrAt w (cfgs 0).N)
      (Proc.tc.devRef main_v0) = flat m c :=
    (Pipeline.withArrays_arr spec0 launch0.win.arr_inj c _ _ 2).trans (final m c)
  rw [e]
  rfl

/-- The run, read: the result at the [512, 32, 32] view of the stored value, the arguments unchanged. -/
theorem run : θ_run defs (onTc (τ := τ) (main (F := F))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Val

end
-- ==== Proof.Finite.lean ====
/-
  What the precondition says: every entry of both inputs is a real number.

  The printed predicate is `all(|x| < +∞) ∧ all(|w| < +∞)`. On the extended reals `|a| = max a (-a)` is `+∞`
  exactly at the two infinities, and the pattern `0x7F800000` denotes `+∞`; so an entry that passes the
  comparison is neither infinity, that is, a real.
-/
import proofs.«153509_g2010044694719_bridgefix_232_17_alg».proof.Pre_finite_inputs
import proofs.«153509_g2010044694719_bridgefix_232_17_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs Cert.Pre_finite_inputs.Gen

instance : Subsingleton S_.Idx := ⟨fun a b => funext fun d => d.elim0⟩

/-- The pattern of `+∞`. -/
theorem ofBits_inf : Ideal.ofBits .f32 0x7F800000#32 = ⊤ := by
  simp [Ideal.ofBits, Ideal.ieee]

/-- An extended real whose absolute value is below `+∞` is a real. -/
theorem real_of_abs_lt_top (a : EReal) (h : Ideal.cmp .olt (max a (-a)) ⊤ = 1#1) : ∃ r : ℝ, a = (r : EReal) := by
  induction a using EReal.rec with
  | bot => simp [Ideal.cmp] at h
  | top => simp [Ideal.cmp] at h
  | coe r => exact ⟨r, rfl⟩

/-- Under the precondition both inputs hold reals only. -/
theorem real_of_pre (x : FVec Ideal S512x256 .f32) (w : FVec Ideal S32x32x256 .f32)
    (h : fn (F := Ideal) x w = fun _ => 1#1) :
    (∀ i, ∃ r : ℝ, x i = (r : EReal)) ∧ (∀ i, ∃ r : ℝ, w i = (r : EReal)) := by
  have h0 := congrFun h ValueIdx.ix0
  dsimp only [fn] at h0
  obtain ⟨hx, hw⟩ := IntOp.andi_eq_one.1 h0
  refine ⟨fun i => ?_, fun i => ?_⟩
  · have e := Host.reduce_andi_all _ _ _ _ _ hx i
    have e' : Ideal.cmp .olt (max (x i) (-(x i))) (Ideal.ofBits .f32 0x7F800000#32) = 1#1 := e
    rw [ofBits_inf] at e'
    exact real_of_abs_lt_top _ e'
  · have e := Host.reduce_andi_all _ _ _ _ _ hw i
    have e' : Ideal.cmp .olt (max (w i) (-(w i))) (Ideal.ofBits .f32 0x7F800000#32) = 1#1 := e
    rw [ofBits_inf] at e'
    exact real_of_abs_lt_top _ e'

end Cert.Finite

end
-- ==== Proof.LibKeepdims.lean ====
/-
  Layout and reduction forms that a `keepdims=True` reduction meets, read at an index written by coordinates.

  A sum kept as a column — `[a]` viewed as `[a, 1]` — and that column, or a single `[1, 1]` cell, spread
  back over an `[a, b]` block read one entry of the smaller array; and a host sum over the last two axes of a
  rank-4 array is, at each index of the two axes kept, the double sum over the two coordinates dropped (every
  index that drops to `(p, q)` is `(p, q, l, k)` for exactly one pair `(l, k)`).
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-! ## A column made of a vector, and spread over a block -/

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A single cell `[1, 1]` broadcast to `[a, b]` reads that cell at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

/-! ## A host sum over the last two of four axes -/

/-- The host's float sum over axes 2 and 3 of an `[a, b, c, d]` array, at `(p, q)`: the initial value plus the
    sum over `l` and `k` of the operand at `(p, q, l, k)`. The indices that drop to `(p, q)` correspond one to
    one to the pairs `(l, k)` of their last two coordinates. -/
theorem hostReduceAdd_lastTwo {a b c d : ℕ}
    (h : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h x init (ix2 p q) = init + ∑ l : Fin c, ∑ k : Fin d, x (ix4 p q l k) := by
  unfold Ideal.hostReduceAdd
  refine congrArg (init + ·) ?_
  rw [← Finset.sum_product' (Finset.univ : Finset (Fin c)) (Finset.univ : Finset (Fin d)) (fun l k => x (ix4 p q l k))]
  -- the axes kept are 0 and 1, whatever the extents: a dropped index has the source's first two coordinates
  have d0 : ∀ i : (⟨4, ![a, b, c, d]⟩ : Shape).Idx, (h.drop i 0 : ℕ) = i 0 := fun _ => rfl
  have d1 : ∀ i : (⟨4, ![a, b, c, d]⟩ : Shape).Idx, (h.drop i 1 : ℕ) = i 1 := fun _ => rfl
  refine Finset.sum_nbij' (fun i => (i 2, i 3)) (fun lk => ix4 p q lk.1 lk.2) ?_ ?_ ?_ ?_ ?_
  · intro i _; exact Finset.mem_product.2 ⟨Finset.mem_univ _, Finset.mem_univ _⟩
  · intro lk _
    refine Finset.mem_filter.2 ⟨Finset.mem_univ _, funext fun ax => Fin.ext ?_⟩
    match ax with
    | ⟨0, _⟩ => exact d0 _
    | ⟨1, _⟩ => exact d1 _
  · intro i hi
    have hj := (Finset.mem_filter.1 hi).2
    funext ax; apply Fin.ext
    match ax with
    | ⟨0, _⟩ => show p.val = (i 0).val; rw [← d0 i, hj]; rfl
    | ⟨1, _⟩ => show q.val = (i 1).val; rw [← d1 i, hj]; rfl
    | ⟨2, _⟩ => rfl
    | ⟨3, _⟩ => rfl
  · intro lk _; rfl
  · intro i hi
    have hj := (Finset.mem_filter.1 hi).2
    refine congrArg x ?_
    funext ax; apply Fin.ext
    match ax with
    | ⟨0, _⟩ => show (i 0).val = p.val; rw [← d0 i, hj]; rfl
    | ⟨1, _⟩ => show (i 1).val = q.val; rw [← d1 i, hj]; rfl
    | ⟨2, _⟩ => rfl
    | ⟨3, _⟩ => rfl

end Cert.LibKeepdims

end
-- ==== Proof.KernelAt.lean ====
/-
  The kernel's stored value at an entry `(b, n)`, on the extended reals:

      Σ_d (x[b, d] · (-2)) · W[n, d]  +  Σ_d x[b, d] · x[b, d]  +  Σ_d 1 · (W[n, d] · W[n, d]),

  `W` the [1024, 256] view of the weights. The two contractions run over the feature axis of both operands
  (the output's row picks the left operand's row, its column the right operand's ROW: a product with the transpose),
  each into a zero accumulator, so each is the plain sum of products; the lane sum of `x²` is kept as a column and
  spread along the row; the second contraction's one row is spread down the columns.
-/
import proofs.«153509_g2010044694719_bridgefix_232_17_alg».proof.Proof.KernelValue
import proofs.«153509_g2010044694719_bridgefix_232_17_alg».proof.Proof.LibKeepdims
import Idealize.ShloMosaic.Lib.ValueIdx
import Idealize.ShloMosaic.Lib.ValueLayout
import Idealize.ShloMosaic.PureOps.Ideal.Laws

noncomputable section

open scoped BigOperators

namespace Cert.KernelIdeal.At

open Cert.KernelIdeal Cert.KernelIdeal.Gen Cert.KernelIdeal.Val
open Idealize.ShloMosaic Idealize.ShloMosaic.ValueIdx

/-- The weights' [1024, 256] view (`Val.flatW`), typed as a float vector of the extended reals. -/
abbrev flatI (w : FVec Ideal S32x32x256 .f32) : FVec Ideal S1024x256 .f32 := flatW (F := Ideal) w

/-! ## The cross term's contraction: which entries of the operands meet -/

theorem lhs_cross_0 (i : S512x1024.Idx) (q : dot_S512x256_S1024x256_S512x1024_1_1_0_0_n_n.contr.Idx) :
    (dot_S512x256_S1024x256_S512x1024_1_1_0_0_n_n.lhsIdx i q 0).val = (i 0).val := by
  unfold DotDims.lhsIdx
  rw [dif_neg (show ¬(0 : Fin S512x256.rank) ∈ dot_S512x256_S1024x256_S512x1024_1_1_0_0_n_n.lhsBatch by decide),
    dif_pos (show (0 : Fin S512x256.rank) ∈ dot_S512x256_S1024x256_S512x1024_1_1_0_0_n_n.lhsNonContracting by decide)]
  rfl
theorem lhs_cross_1 (i : S512x1024.Idx) (q : dot_S512x256_S1024x256_S512x1024_1_1_0_0_n_n.contr.Idx) :
    (dot_S512x256_S1024x256_S512x1024_1_1_0_0_n_n.lhsIdx i q 1).val = (q ⟨0, by decide⟩).val :=
  dot_S512x256_S1024x256_S512x1024_1_1_0_0_n_n.lhsIdx_val_of_single rfl i q
theorem rhs_cross_0 (i : S512x1024.Idx) (q : dot_S512x256_S1024x256_S512x1024_1_1_0_0_n_n.contr.Idx) :
    (dot_S512x256_S1024x256_S512x1024_1_1_0_0_n_n.rhsIdx i q 0).val = (i 1).val := by
  unfold DotDims.rhsIdx
  rw [dif_neg (show ¬(0 : Fin S1024x256.rank) ∈ dot_S512x256_S1024x256_S512x1024_1_1_0_0_n_n.rhsBatch by decide),
    dif_pos (show (0 : Fin S1024x256.rank) ∈ dot_S512x256_S1024x256_S512x1024_1_1_0_0_n_n.rhsNonContracting by decide)]
  rfl
theorem rhs_cross_1 (i : S512x1024.Idx) (q : dot_S512x256_S1024x256_S512x1024_1_1_0_0_n_n.contr.Idx) :
    (dot_S512x256_S1024x256_S512x1024_1_1_0_0_n_n.rhsIdx i q 1).val = (q ⟨0, by decide⟩).val :=
  dot_S512x256_S1024x256_S512x1024_1_1_0_0_n_n.rhsIdx_val_of_single rfl i q

/-- The [512, 256] × [1024, 256] contraction over the feature axis, into zero, at `(b, n)`: row `b` of the left
    operand against row `n` of the right. -/
theorem cross_apply (u : FVec Ideal S512x256 .f32) (v : FVec Ideal S1024x256 .f32) (b : Fin 512) (n : Fin 1024) :
    matmul dot_S512x256_S1024x256_S512x1024_1_1_0_0_n_n none u v (constant (F := Ideal) S512x1024 .f32 0x00000000#32) (ix2 b n)
      = ∑ d : Fin 256, u (ix2 b d) * v (ix2 n d) := by
  simp only [matmul]
  rw [Ideal.matmul_constant_zero_apply, ← Equiv.sum_comp (contrEquiv1 dot_S512x256_S1024x256_S512x1024_1_1_0_0_n_n 256 rfl rfl).symm]
  refine Finset.sum_congr rfl fun k _ => ?_
  have hk := contrEquiv1_symm_val dot_S512x256_S1024x256_S512x1024_1_1_0_0_n_n 256 rfl rfl k
  have el : dot_S512x256_S1024x256_S512x1024_1_1_0_0_n_n.lhsIdx (ix2 b n) ((contrEquiv1 dot_S512x256_S1024x256_S512x1024_1_1_0_0_n_n 256 rfl rfl).symm k) = ix2 b k :=
    funext fun a => Fin.ext (by
      match a with
      | ⟨0, _⟩ => exact lhs_cross_0 _ _
      | ⟨1, _⟩ => exact (lhs_cross_1 _ _).trans hk)
  have er : dot_S512x256_S1024x256_S512x1024_1_1_0_0_n_n.rhsIdx (ix2 b n) ((contrEquiv1 dot_S512x256_S1024x256_S512x1024_1_1_0_0_n_n 256 rfl rfl).symm k) = ix2 n k :=
    funext fun a => Fin.ext (by
      match a with
      | ⟨0, _⟩ => exact rhs_cross_0 _ _
      | ⟨1, _⟩ => exact (rhs_cross_1 _ _).trans hk)
  rw [el, er]

/-! ## The weights' squared norms: a one-row left operand against the squared weights -/

theorem lhs_norm_0 (i : S1x1024.Idx) (q : dot_S1x256_S1024x256_S1x1024_1_1_0_0_n_n.contr.Idx) :
    (dot_S1x256_S1024x256_S1x1024_1_1_0_0_n_n.lhsIdx i q 0).val = (i 0).val := by
  unfold DotDims.lhsIdx
  rw [dif_neg (show ¬(0 : Fin S1x256.rank) ∈ dot_S1x256_S1024x256_S1x1024_1_1_0_0_n_n.lhsBatch by decide),
    dif_pos (show (0 : Fin S1x256.rank) ∈ dot_S1x256_S1024x256_S1x1024_1_1_0_0_n_n.lhsNonContracting by decide)]
  rfl
theorem lhs_norm_1 (i : S1x1024.Idx) (q : dot_S1x256_S1024x256_S1x1024_1_1_0_0_n_n.contr.Idx) :
    (dot_S1x256_S1024x256_S1x1024_1_1_0_0_n_n.lhsIdx i q 1).val = (q ⟨0, by decide⟩).val :=
  dot_S1x256_S1024x256_S1x1024_1_1_0_0_n_n.lhsIdx_val_of_single rfl i q
theorem rhs_norm_0 (i : S1x1024.Idx) (q : dot_S1x256_S1024x256_S1x1024_1_1_0_0_n_n.contr.Idx) :
    (dot_S1x256_S1024x256_S1x1024_1_1_0_0_n_n.rhsIdx i q 0).val = (i 1).val := by
  unfold DotDims.rhsIdx
  rw [dif_neg (show ¬(0 : Fin S1024x256.rank) ∈ dot_S1x256_S1024x256_S1x1024_1_1_0_0_n_n.rhsBatch by decide),
    dif_pos (show (0 : Fin S1024x256.rank) ∈ dot_S1x256_S1024x256_S1x1024_1_1_0_0_n_n.rhsNonContracting by decide)]
  rfl
theorem rhs_norm_1 (i : S1x1024.Idx) (q : dot_S1x256_S1024x256_S1x1024_1_1_0_0_n_n.contr.Idx) :
    (dot_S1x256_S1024x256_S1x1024_1_1_0_0_n_n.rhsIdx i q 1).val = (q ⟨0, by decide⟩).val :=
  dot_S1x256_S1024x256_S1x1024_1_1_0_0_n_n.rhsIdx_val_of_single rfl i q

/-- The [1, 256] × [1024, 256] contraction over the feature axis, into zero, at `(0, n)`. -/
theorem norm_apply (u : FVec Ideal S1x256 .f32) (v : FVec Ideal S1024x256 .f32) (z : Fin 1) (n : Fin 1024) :
    matmul dot_S1x256_S1024x256_S1x1024_1_1_0_0_n_n none u v (constant (F := Ideal) S1x1024 .f32 0x00000000#32) (ix2 z n)
      = ∑ d : Fin 256, u (ix2 z d) * v (ix2 n d) := by
  simp only [matmul]
  rw [Ideal.matmul_constant_zero_apply, ← Equiv.sum_comp (contrEquiv1 dot_S1x256_S1024x256_S1x1024_1_1_0_0_n_n 256 rfl rfl).symm]
  refine Finset.sum_congr rfl fun k _ => ?_
  have hk := contrEquiv1_symm_val dot_S1x256_S1024x256_S1x1024_1_1_0_0_n_n 256 rfl rfl k
  have el : dot_S1x256_S1024x256_S1x1024_1_1_0_0_n_n.lhsIdx (ix2 z n) ((contrEquiv1 dot_S1x256_S1024x256_S1x1024_1_1_0_0_n_n 256 rfl rfl).symm k) = ix2 z k :=
    funext fun a => Fin.ext (by
      match a with
      | ⟨0, _⟩ => exact lhs_norm_0 _ _
      | ⟨1, _⟩ => exact (lhs_norm_1 _ _).trans hk)
  have er : dot_S1x256_S1024x256_S1x1024_1_1_0_0_n_n.rhsIdx (ix2 z n) ((contrEquiv1 dot_S1x256_S1024x256_S1x1024_1_1_0_0_n_n 256 rfl rfl).symm k) = ix2 n k :=
    funext fun a => Fin.ext (by
      match a with
      | ⟨0, _⟩ => exact rhs_norm_0 _ _
      | ⟨1, _⟩ => exact (rhs_norm_1 _ _).trans hk)
  rw [el, er]

/-! ## The row sums of a [512, 256] block -/

/-- The lane sum over the feature axis at row `b`. -/
theorem rowsum_apply (v : FVec Ideal S512x256 .f32) (b : Fin 512) :
    multiReduction .add [1] S512 v 0x00000000#32 reduces_S512x256_S512 (.inl rfl) rfl (ix1 b)
      = ∑ d : Fin 256, v (ix2 b d) := by
  refine (Ideal.multiReduction_add_single v 0x00000000#32 reduces_S512x256_S512 (.inl rfl) rfl (ix1 b)).trans ?_
  refine Finset.sum_congr rfl fun d _ => congrArg v (funext fun a => Fin.ext ?_)
  match a with
  | ⟨0, _⟩ => rfl
  | ⟨1, _⟩ => rfl

/-! ## The stored value at an entry -/

/-- The body's stored value, its operations spelt out over the two blocks. -/
theorem dist_eq (x : FVec Ideal S512x256 .f32) (w : FVec Ideal S32x32x256 .f32) :
    dist (F := Ideal) x w
      = addf
          (addf
            (matmul dot_S512x256_S1024x256_S512x1024_1_1_0_0_n_n none (mulf x (broadcast S512x256 (Scalar.ofBits .f32 0xC0000000#32))) (flatI w)
              (constant (F := Ideal) S512x1024 .f32 0x00000000#32))
            (broadcastTo S512x1024
              (shapeCast S512x1
                (multiReduction .add [1] S512 (mulf x x) 0x00000000#32 reduces_S512x256_S512 (.inl rfl) rfl)
                shapeCasts_S512_S512x1)
              broadcasts_S512x1_S512x1024))
          (broadcastTo S512x1024
            (matmul dot_S1x256_S1024x256_S1x1024_1_1_0_0_n_n none (broadcast S1x256 (Scalar.ofBits .f32 0x3F800000#32)) (mulf (flatI w) (flatI w))
              (constant (F := Ideal) S1x1024 .f32 0x00000000#32))
            broadcasts_S1x1024_S512x1024) := rfl

/-- At `(b, n)`: the cross term, plus the squared norm of row `b` of `x`, plus (against the factor `1`) the
    squared norm of row `n` of the weights' [1024, 256] view. -/
theorem dist_apply (x : FVec Ideal S512x256 .f32) (w : FVec Ideal S32x32x256 .f32) (b : Fin 512) (n : Fin 1024) :
    dist (F := Ideal) x w (ix2 b n)
      = (∑ d : Fin 256, (x (ix2 b d) * Ideal.ofBits .f32 0xC0000000#32) * flatI w (ix2 n d)
          + ∑ d : Fin 256, x (ix2 b d) * x (ix2 b d))
        + ∑ d : Fin 256, Ideal.ofBits .f32 0x3F800000#32 * (flatI w (ix2 n d) * flatI w (ix2 n d)) := by
  rw [dist_eq, addf_apply, addf_apply, Cert.LibKeepdims.broadcastTo_a1_ab_apply,
    Cert.LibKeepdims.shapeCast_a_a1_apply, broadcastTo_1b_ab_apply, cross_apply, rowsum_apply, norm_apply]
  rfl

end Cert.KernelIdeal.At

end
-- ==== Proof.RefValue.lean ====
/-
  The reference's result at an index: at `(b, r, c)` it is zero plus the sum over the feature axis of
  `(w[r, c, d] - x[b, d])²` — the broadcasts of `x` along the grid axes and of the weights along the batch axis
  read at their source entries, the difference squared as a product with itself, and the host's sum over the
  last axis its initial value plus the sum over that axis's coordinates.
-/
import proofs.«153509_g2010044694719_bridgefix_232_17_alg».proof.Proof.Gen.ReferenceIdeal.Read
import Idealize.ShloMosaic.Lib.ValueIdx

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The entry of the rank-4 difference array that feeds `(b, r, c)` at feature `d` reads `x` at `(b, d)`, -/
theorem x_at (b : Fin 512) (r c : Fin 32) (d : Fin 256) :
    idx_main_v0 (idx_main_v3 (idx_main_v6 (ix3 b r c) d)) = ix2 b d :=
  funext fun a => Fin.ext (by match a with | ⟨0, _⟩ => rfl | ⟨1, _⟩ => rfl)

/-- and the weights at `(r, c, d)`. -/
theorem w_at (b : Fin 512) (r c : Fin 32) (d : Fin 256) :
    idx_main_v1 (idx_main_v2 (idx_main_v6 (ix3 b r c) d)) = ix3 r c d :=
  funext fun a => Fin.ext (by match a with | ⟨0, _⟩ => rfl | ⟨1, _⟩ => rfl | ⟨2, _⟩ => rfl)

/-- The reference at `(b, r, c)`. -/
theorem ref_apply (x : (⟨S512x256, .f32⟩ : BufTy).Contents (Elt Ideal)) (w : (⟨S32x32x256, .f32⟩ : BufTy).Contents (Elt Ideal))
    (b : Fin 512) (r c : Fin 32) :
    val_main_v6 (F := Ideal) x w (ix3 b r c)
      = Ideal.ofBits .f32 0x00000000#32
        + ∑ d : Fin 256, (w (ix3 r c d) - x (ix2 b d)) * (w (ix3 r c d) - x (ix2 b d)) := by
  rw [val_main_v6_apply]
  refine congrArg₂ (· + ·) rfl (Finset.sum_congr rfl fun d _ => ?_)
  rw [val_main_v5_apply, val_main_v4_apply, val_main_v2_apply, val_main_v1_apply, val_main_v3_apply,
    val_main_v0_apply, x_at, w_at]
  rfl

end Cert.ReferenceIdeal.RefValue

end
-- ==== Proof.SqDist.lean ====
/-
  The squared distance, expanded. For real vectors `x` and `w` over a finite index set,

      Σₖ (wₖ - xₖ)² = Σₖ (-2 xₖ) wₖ + Σₖ xₖ² + Σₖ 1 · wₖ²,

  stated on the extended reals at entries that are real numbers: there subtraction, product and finite sums
  are the reals' (the coercion commutes with each), so the identity is the reals' binomial expansion summed.
  At an infinite entry it fails (`⊤ - ⊤`), which is why the entries are taken real.
-/
import Idealize.ShloMosaic.PureOps.Ideal.Laws

noncomputable section

open scoped BigOperators

namespace Cert.SqDist

/-- The coercion of the reals into the extended reals commutes with a finite sum. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The reals' identity, summed: `(w - x)² = (-2 x) w + x² + 1 · w²` term by term. -/
theorem expand_real {ι : Type*} [Fintype ι] (x w : ι → ℝ) :
    ∑ k, (w k - x k) * (w k - x k)
      = (∑ k, (x k * (-2)) * w k + ∑ k, x k * x k) + ∑ k, 1 * (w k * w k) := by
  rw [← Finset.sum_add_distrib, ← Finset.sum_add_distrib]
  exact Finset.sum_congr rfl fun k _ => by ring

/-- On the extended reals, at real entries: zero plus the sum of the squared differences is the cross term
    (the factor `-2` on `x`) plus the two sums of squares (the second one against a factor `1`). -/
theorem expand {ι : Type*} [Fintype ι] (x w : ι → ℝ) :
    (0 : EReal) + ∑ k, ((w k : EReal) - (x k : EReal)) * ((w k : EReal) - (x k : EReal))
      = (∑ k, ((x k : EReal) * ((-2 : ℝ) : EReal)) * (w k : EReal) + ∑ k, (x k : EReal) * (x k : EReal))
        + ∑ k, ((1 : ℝ) : EReal) * ((w k : EReal) * (w k : EReal)) := by
  simp only [← EReal.coe_sub, ← EReal.coe_mul, ← coe_sum, ← EReal.coe_add, zero_add]
  exact congrArg _ (expand_real x w)

end Cert.SqDist

end
-- ==== Proof.Consts.lean ====
/-
  The float literals the kernel spells, as the extended reals their bit patterns denote: the factor `-2`
  folded into `x` before the contraction, and the `1` of the ones row the second contraction multiplies by.
  (The zero word is the library's `Ideal.ofBits_zero_f32`.)
-/
import Idealize.ShloMosaic.PureOps.Ideal

noncomputable section

namespace Cert.Consts

open Idealize.ShloMosaic

/-- `-2.0` denotes the real `-2`. -/
theorem ofBits_neg_two : Ideal.ofBits .f32 0xC0000000#32 = ((-2 : ℝ) : EReal) := by
  simp [Ideal.ofBits, Ideal.ieee, -EReal.coe_mul]; norm_num

/-- `1.0` denotes the real `1`. -/
theorem ofBits_one : Ideal.ofBits .f32 0x3F800000#32 = ((1 : ℝ) : EReal) := by
  simp [Ideal.ofBits, Ideal.ieee, -EReal.coe_mul]; norm_num

end Cert.Consts

end
-- ==== Proof.Bridge.lean ====
/-
  The two sides are one function, at inputs that hold reals.

  At `(b, r, c)` the reference is `0 + Σ_d (w[r, c, d] - x[b, d])²`. The kernel's result there is its stored
  value at `(b, 32 r + c)` (the [512, 32, 32] view of the [512, 1024] array: the same row-major position), where the
  weights' [1024, 256] view reads row `32 r + c` as `w[r, c, ·]`; that value is the cross term with the factor `-2`
  plus the two sums of squares. Over the reals these agree: the binomial expansion, summed over the features.
-/
import proofs.«153509_g2010044694719_bridgefix_232_17_alg».proof.Proof.KernelAt
import proofs.«153509_g2010044694719_bridgefix_232_17_alg».proof.Proof.RefValue
import proofs.«153509_g2010044694719_bridgefix_232_17_alg».proof.Proof.SqDist
import proofs.«153509_g2010044694719_bridgefix_232_17_alg».proof.Proof.Consts

noncomputable section

open scoped BigOperators

namespace Cert.Bridge

open Idealize.ShloMosaic Idealize.ShloMosaic.ValueIdx
open Cert.KernelIdeal.Val Cert.KernelIdeal.At

/-- Neuron `(r, c)` of the grid as a row of the weights' [1024, 256] view. -/
abbrev neuron (r c : Fin 32) : Fin 1024 := ⟨32 * r.val + c.val, by have := r.isLt; have := c.isLt; omega⟩

/-- Row `32 r + c` of the view is `w[r, c, ·]`. -/
theorem flat_apply (w : FVec Ideal Cert.KernelIdeal.S32x32x256 .f32) (r c : Fin 32) (d : Fin 256) :
    flatI w (ix2 (neuron r c) d) = w (ix3 r c d) :=
  shapeCast_apply w _ (ix2 (neuron r c) d) (ix3 r c d) (by
    rw [Shape.rowMajor_val_three, Shape.rowMajor_val_two]
    show (r.val * 32 + c.val) * 256 + d.val = (32 * r.val + c.val) * 256 + d.val
    omega)

/-- The result's entry `(b, r, c)` is the stored value's entry `(b, 32 r + c)`. -/
theorem view_apply (v : FVec Ideal Cert.KernelIdeal.S512x1024 .f32) (b : Fin 512) (r c : Fin 32) :
    shapeCast Cert.KernelIdeal.S512x32x32 v Cert.KernelIdeal.Gen.shapeCasts_S512x1024_S512x32x32 (ix3 b r c)
      = v (ix2 b (neuron r c)) :=
  shapeCast_apply v _ (ix3 b r c) (ix2 b (neuron r c)) (by
    rw [Shape.rowMajor_val_two, Shape.rowMajor_val_three]
    show b.val * 1024 + (32 * r.val + c.val) = (b.val * 32 + r.val) * 32 + c.val
    omega)

/-- The stored value at `(b, 32 r + c)`, over the weights' own entries `w[r, c, ·]`. -/
theorem dist_at (x : FVec Ideal Cert.KernelIdeal.S512x256 .f32) (w : FVec Ideal Cert.KernelIdeal.S32x32x256 .f32)
    (b : Fin 512) (r c : Fin 32) :
    dist (F := Ideal) x w (ix2 b (neuron r c))
      = (∑ d : Fin 256, (x (ix2 b d) * Ideal.ofBits .f32 0xC0000000#32) * w (ix3 r c d)
          + ∑ d : Fin 256, x (ix2 b d) * x (ix2 b d))
        + ∑ d : Fin 256, Ideal.ofBits .f32 0x3F800000#32 * (w (ix3 r c d) * w (ix3 r c d)) := by
  rw [dist_apply]
  refine congrArg₂ (· + ·) (congrArg₂ (· + ·) (Finset.sum_congr rfl fun d _ => ?_) rfl)
    (Finset.sum_congr rfl fun d _ => ?_)
  · rw [flat_apply]
  · rw [flat_apply]

/-- At real inputs the kernel's result is the reference's. -/
theorem result_eq (x : FVec Ideal Cert.KernelIdeal.S512x256 .f32) (w : FVec Ideal Cert.KernelIdeal.S32x32x256 .f32)
    (hx : ∀ i, ∃ a : ℝ, x i = (a : EReal)) (hw : ∀ i, ∃ a : ℝ, w i = (a : EReal)) :
    shapeCast Cert.KernelIdeal.S512x32x32 (dist (F := Ideal) x w) Cert.KernelIdeal.Gen.shapeCasts_S512x1024_S512x32x32
      = Cert.ReferenceIdeal.Read.val_main_v6 (F := Ideal) x w := by
  funext i
  obtain ⟨b, r, c, rfl⟩ : ∃ (b : Fin 512) (r c : Fin 32), i = ix3 b r c := ⟨i 0, i 1, i 2, eq_ix3 i⟩
  rw [Cert.ReferenceIdeal.RefValue.ref_apply, view_apply, dist_at]
  choose xr hxr using hx
  choose wr hwr using hw
  simp only [hxr, hwr, Cert.Consts.ofBits_neg_two, Cert.Consts.ofBits_one, Ideal.ofBits_zero_f32]
  exact (Cert.SqDist.expand (fun d => xr (ix2 b d)) (fun d => wr (ix3 r c d))).symm

end Cert.Bridge

end
-- ==== Proof.lean ====
/-
  Squared Euclidean distances from 512 input vectors to the 1024 neurons of a 32 × 32 grid, 256 features each.

  The reference subtracts and squares: `dist[b, r, c] = Σ_d (w[r, c, d] - x[b, d])²`. The kernel expands the
  square: one contraction of `-2 x` against the weights viewed as [1024, 256], plus the squared norms of the
  rows of `x` (a lane sum, kept as a column), plus the squared norms of the neurons (a second contraction, of a
  row of ones against the squared weights), and the [512, 1024] array is then viewed as [512, 32, 32].

  Over the extended reals the expansion `(w - x)² = -2 x w + x² + w²` needs the entries to be real numbers
  (at an infinity `w - x` may be `⊤ - ⊤`), which is what the precondition gives: every entry of both inputs
  has absolute value below `+∞`. The literals `-2`, `1` and `0` are exact, and nothing is rounded at this
  reading, so under the precondition the two results agree entry by entry.

  The three runs: the kernel's two frames are the generated ones; the reference has no kernel, and its frame is
  its run with the result dropped. The idealization rewrote nothing, so `preserves` is trivial.
-/
import proofs.«153509_g2010044694719_bridgefix_232_17_alg».proof.Defs
import proofs.«153509_g2010044694719_bridgefix_232_17_alg».proof.Proof.Gen.Kernel
import proofs.«153509_g2010044694719_bridgefix_232_17_alg».proof.Proof.Gen.Kernel.Skeleton
import proofs.«153509_g2010044694719_bridgefix_232_17_alg».proof.Proof.Gen.Kernel.Launch
import proofs.«153509_g2010044694719_bridgefix_232_17_alg».proof.Proof.Gen.Kernel.Points
import proofs.«153509_g2010044694719_bridgefix_232_17_alg».proof.Proof.Gen.Kernel.Frame
import proofs.«153509_g2010044694719_bridgefix_232_17_alg».proof.Proof.Gen.KernelIdeal
import proofs.«153509_g2010044694719_bridgefix_232_17_alg».proof.Proof.Gen.KernelIdeal.Skeleton
import proofs.«153509_g2010044694719_bridgefix_232_17_alg».proof.Proof.Gen.KernelIdeal.Launch
import proofs.«153509_g2010044694719_bridgefix_232_17_alg».proof.Proof.Gen.KernelIdeal.Points
import proofs.«153509_g2010044694719_bridgefix_232_17_alg».proof.Proof.Gen.KernelIdeal.Frame
import proofs.«153509_g2010044694719_bridgefix_232_17_alg».proof.Proof.Gen.ReferenceIdeal
import proofs.«153509_g2010044694719_bridgefix_232_17_alg».proof.Proof.Gen.Pre_finite_inputs
import proofs.«153509_g2010044694719_bridgefix_232_17_alg».proof.Proof.Gen.ReferenceIdeal.Run
import proofs.«153509_g2010044694719_bridgefix_232_17_alg».proof.Proof.Gen.ReferenceIdeal.Read
import proofs.«153509_g2010044694719_bridgefix_232_17_alg».proof.Proof.KernelValue
import proofs.«153509_g2010044694719_bridgefix_232_17_alg».proof.Proof.Finite
import proofs.«153509_g2010044694719_bridgefix_232_17_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the kernel's result is the [512, 32, 32] view of its stored value of the arguments, the
    reference's the sum of squared differences of arguments that agree with them; under the precondition the
    arguments hold reals, where the two are equal. -/
theorem algebraic : Cert.algebraic_KernelIdeal_ReferenceIdeal := by
  intro m ρ m' ρ' hpre hagree
  refine ⟨fun c => Cert.KernelIdeal.Val.result m c, Cert.KernelIdeal.Val.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v6_eq _ _).trans ?_
  rw [(hagree c).1, (hagree c).2]
  obtain ⟨hx, hw⟩ := Cert.Finite.real_of_pre _ _ (hpre c)
  exact (Cert.Bridge.result_eq _ _ hx hw).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
